-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1000000 : Shape := ⟨1, ![1000000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S1000000 32) (main_arg2 : IVec S1000000 32) (main_arg3 : FVec F S256x256 .f32) (main_arg4 : FVec F S256 .f32) (main_arg5 : FVec F S256x1 .f32) (main_arg6 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg5
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg6 main_v13 main_v16
-- ==== Kernel.lean ====
abbrev S100000x256 : Shape := ⟨2, ![100000, 256]⟩
abbrev S1000000 : Shape := ⟨1, ![1000000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S1000000x1 : Shape := ⟨2, ![1000000, 1]⟩
abbrev S1000000x256 : Shape := ⟨2, ![1000000, 256]⟩
abbrev S1x256 : Shape := ⟨2, ![1, 256]⟩
abbrev S1x1 : Shape := ⟨2, ![1, 1]⟩
abbrev S8000x256 : Shape := ⟨2, ![8000, 256]⟩
abbrev S8000x1 : Shape := ⟨2, ![8000, 1]⟩
abbrev S8000 : Shape := ⟨1, ![8000]⟩

abbrev nBuf : Space → Nat
  | .hbm => 32
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S1000000, .i32⟩
  | .hbm, ⟨2, _⟩ => ⟨S1000000, .i32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x256, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x256, .f32⟩
  | .hbm, ⟨25, _⟩ => ⟨S1000000x256, .f32⟩
  | .hbm, ⟨26, _⟩ => ⟨S1000000x256, .bf16⟩
  | .hbm, ⟨27, _⟩ => ⟨S256x256, .bf16⟩
  | .hbm, ⟨28, _⟩ => ⟨S1x256, .f32⟩
  | .hbm, ⟨29, _⟩ => ⟨S1x256, .f32⟩
  | .hbm, ⟨30, _⟩ => ⟨S1x1, .f32⟩
  | .hbm, ⟨31, _⟩ => ⟨S1000000x1, .f32⟩
  | .local _ .vmem, ⟨0, _⟩ => ⟨S8000x256, .bf16⟩
  | .local _ .vmem, ⟨1, _⟩ => ⟨S8000x256, .bf16⟩
  | .local _ .vmem, ⟨2, _⟩ => ⟨S256x256, .bf16⟩
  | .local _ .vmem, ⟨3, _⟩ => ⟨S1x256, .f32⟩
  | .local _ .vmem, ⟨4, _⟩ => ⟨S1x256, .f32⟩
  | .local _ .vmem, ⟨5, _⟩ => ⟨S1x1, .f32⟩
  | .local _ .vmem, ⟨6, _⟩ => ⟨S8000x1, .f32⟩
  | .local _ .vmem, ⟨7, _⟩ => ⟨S8000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bitsLt_bf16_f32 : FTy.bits .bf16 < FTy.bits .f32
  shapeCasts_S256_S1x256 : S256.ShapeCasts S1x256
  shapeCasts_S256x1_S1x256 : S256x1.ShapeCasts S1x256
  shapeCasts_S1_S1x1 : S1.ShapeCasts S1x1
  inb_S8000x256_S8000x256_0_0 : ∀ a, (![0, 0] : Fin 2 → Nat) a + S8000x256.size a ≤ S8000x256.size a
  h_S8000x256 : 0 < S8000x256.numel
  shapeCasts_S8000x256_S8000x256 : S8000x256.ShapeCasts S8000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  reduces_S8000x256_S8000 : S8000x256.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  gather_S100000x256_S1000000x1_S1000000x256_1_0_n_n_0_1_1256_wf : GatherDims.WF S100000x256 S1000000x1 S1000000x256 [1] [0] [] [0] [] 1 ![1, 256]
  dot_S8000x256_S256x256_S8000x256_1_0_0_1_n_n_wf : DotDims.WF S8000x256 S256x256 S8000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S1000000x256.size a
  hwx0_0 : ∀ i : grid0.Coords, EltTy.bits .bf16 = 32 ∨ (Rect.block (s := S1000000x256) S8000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x1.size a ≤ S1000000x1.size a
  hwx0_5 : ∀ i : grid0.Coords, EltTy.bits .f32 = 32 ∨ (Rect.block (s := S1000000x1) S8000x1.size (cc0_transform_5 i) (hinb0_5 i)).WholeWords (EltTy.packing .f32)

variable [Facts₀]

def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf

abbrev win0_0 : Pipeline.Window sig grid0 :=
  Pipeline.Window.ofSpec (Memref.whole main_v15) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S8000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S1000000 : Shape := ⟨1, ![1000000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S1000000x1 : Shape := ⟨2, ![1000000, 1]⟩
abbrev S1000000x256 : Shape := ⟨2, ![1000000, 256]⟩
abbrev S1x256 : Shape := ⟨2, ![1, 256]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1000000, .i32⟩
  | .hbm, ⟨2, _⟩ => ⟨S1000000, .i32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S_, .i32⟩
  | .hbm, ⟨8, _⟩ => ⟨S1000000, .i32⟩
  | .hbm, ⟨9, _⟩ => ⟨S1000000, .i1⟩
  | .hbm, ⟨10, _⟩ => ⟨S_, .i32⟩
  | .hbm, ⟨11, _⟩ => ⟨S1000000, .i32⟩
  | .hbm, ⟨12, _⟩ => ⟨S1000000, .i32⟩
  | .hbm, ⟨13, _⟩ => ⟨S1000000, .i32⟩
  | .hbm, ⟨14, _⟩ => ⟨S1000000x1, .i32⟩
  | .hbm, ⟨15, _⟩ => ⟨S1000000x256, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x256, .f32⟩
  | .hbm, ⟨25, _⟩ => ⟨S1000000x256, .f32⟩
  | .hbm, ⟨26, _⟩ => ⟨S1000000x256, .f32⟩
  | .hbm, ⟨27, _⟩ => ⟨S1x256, .f32⟩
  | .hbm, ⟨28, _⟩ => ⟨S1000000x256, .f32⟩
  | .hbm, ⟨29, _⟩ => ⟨S1000000x256, .f32⟩
  | .hbm, ⟨30, _⟩ => ⟨S_, .f32⟩
  | .hbm, ⟨31, _⟩ => ⟨S1000000x256, .f32⟩
  | .hbm, ⟨32, _⟩ => ⟨S1000000x256, .f32⟩
  | .hbm, ⟨33, _⟩ => ⟨S1000000x1, .f32⟩
  | .hbm, ⟨34, _⟩ => ⟨S1x1, .f32⟩
  | .hbm, ⟨35, _⟩ => ⟨S1000000x1, .f32⟩
  | .hbm, ⟨36, _⟩ => ⟨S1000000x1, .f32⟩
  | .hbm, ⟨37, _⟩ => ⟨S1000000x1, .f32⟩
  | .hbm, ⟨38, _⟩ => ⟨S1000000x1, .f32⟩
  | .hbm, ⟨39, _⟩ => ⟨S_, .f32⟩
  | .hbm, ⟨40, _⟩ => ⟨S1000000x1, .f32⟩
  | .hbm, ⟨41, _⟩ => ⟨S1000000x1, .f32⟩
  | .hbm, ⟨42, _⟩ => ⟨S_, .f32⟩
  | .hbm, ⟨43, _⟩ => ⟨S1000000x1, .f32⟩
  | .hbm, ⟨44, _⟩ => ⟨S1000000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S256_S1x256_1 : S256.BroadcastsInDim S1x256 (![1] : Fin 1 → Fin S1x256.rank)
  bcast_S1x256_S1000000x256_0_1 : S1x256.BroadcastsInDim S1000000x256 (![0, 1] : Fin 2 → Fin S1000000x256.rank)
  bcast_S_S1000000x256 : S_.BroadcastsInDim S1000000x256 (![] : Fin 0 → Fin S1000000x256.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  gather_S100000x256_S1000000x1_S1000000x256_1_0_n_n_0_1_1256_wf : GatherDims.WF S100000x256 S1000000x1 S1000000x256 [1] [0] [] [0] [] 1 ![1, 256]
  dot_S1000000x256_S256x256_S1000000x256_1_0_0_1_n_n_wf : DotDims.WF S1000000x256 S256x256 S1000000x256 [1] [0] [0] [1] [] []
  dot_S1000000x256_S256x1_S1000000x1_1_0_0_1_n_n_wf : DotDims.WF S1000000x256 S256x1 S1000000x1 [1] [0] [0] [1] [] []

variable [Facts₀]

def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def dot_S1000000x256_S256x256_S1000000x256_1_0_0_1_n_n : DotDims S1000000x256 S256x256 S1000000x256 where
  lhsContracting := [1]
  rhsContracting := [0]
  lhsNonContracting := [0]
  rhsNonContracting := [1]
  lhsBatch := []
  rhsBatch := []
  wf := dot_S1000000x256_S256x256_S1000000x256_1_0_0_1_n_n_wf
def dot_S1000000x256_S256x1_S1000000x1_1_0_0_1_n_n : DotDims S1000000x256 S256x1 S1000000x1 where
  lhsContracting := [1]
  rhsContracting := [0]
  lhsNonContracting := [0]
  rhsNonContracting := [1]
  lhsBatch := []
  rhsBatch := []
  wf := dot_S1000000x256_S256x1_S1000000x1_1_0_0_1_n_n_wf

class Facts : Prop extends Facts₀ where

variable [Facts]
-- ==== Proof.Body.lean ====
/-
  One grid step of the kernel, read at a row.

  The body multiplies its 8000 × 256 block of edge features by the 256 × 256 first-layer weights, adds the bias
  row, clips at zero, multiplies by the second layer's weights laid out as a row, sums along the lanes, adds the
  output bias and applies the logistic function. Read at row `r` of the block this is

    logistic (∑ k, max (∑ j, x r j · w1 j k + b1 0 k) 0 · w2 0 k + b2 0 0).

  Each non-pointwise operation gets one small lemma at an index built from literal coordinates; the
  payload lemma then threads them in the body's order.
-/
import proofs.«418109_j88364657148159_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The matrix product at an entry -/

theorem lhs_dot_0 (i : S8000x256.Idx) (q : dot_S8000x256_S256x256_S8000x256_1_0_0_1_n_n.contr.Idx) :
    (dot_S8000x256_S256x256_S8000x256_1_0_0_1_n_n.lhsIdx i q 0).val = (i 0).val := by
  unfold DotDims.lhsIdx
  rw [dif_neg (show ¬(0 : Fin S8000x256.rank) ∈ dot_S8000x256_S256x256_S8000x256_1_0_0_1_n_n.lhsBatch by decide), dif_pos (show (0 : Fin S8000x256.rank) ∈ dot_S8000x256_S256x256_S8000x256_1_0_0_1_n_n.lhsNonContracting by decide)]
  rfl
theorem lhs_dot_1 (i : S8000x256.Idx) (q : dot_S8000x256_S256x256_S8000x256_1_0_0_1_n_n.contr.Idx) :
    (dot_S8000x256_S256x256_S8000x256_1_0_0_1_n_n.lhsIdx i q 1).val = (q ⟨0, by decide⟩).val :=
  dot_S8000x256_S256x256_S8000x256_1_0_0_1_n_n.lhsIdx_val_of_single rfl i q
theorem rhs_dot_0 (i : S8000x256.Idx) (q : dot_S8000x256_S256x256_S8000x256_1_0_0_1_n_n.contr.Idx) :
    (dot_S8000x256_S256x256_S8000x256_1_0_0_1_n_n.rhsIdx i q 0).val = (q ⟨0, by decide⟩).val :=
  dot_S8000x256_S256x256_S8000x256_1_0_0_1_n_n.rhsIdx_val_of_single rfl i q
theorem rhs_dot_1 (i : S8000x256.Idx) (q : dot_S8000x256_S256x256_S8000x256_1_0_0_1_n_n.contr.Idx) :
    (dot_S8000x256_S256x256_S8000x256_1_0_0_1_n_n.rhsIdx i q 1).val = (i 1).val := by
  unfold DotDims.rhsIdx
  rw [dif_neg (show ¬(1 : Fin S256x256.rank) ∈ dot_S8000x256_S256x256_S8000x256_1_0_0_1_n_n.rhsBatch by decide), dif_pos (show (1 : Fin S256x256.rank) ∈ dot_S8000x256_S256x256_S8000x256_1_0_0_1_n_n.rhsNonContracting by decide)]
  rfl

/-- Entry `(r, k)` of the block's product with the weights, accumulated into zero: the row–column sum. -/
theorem matmul_entry (l : FVec Ideal S8000x256 .bf16) (w : FVec Ideal S256x256 .bf16) (r : Fin 8000) (k : Fin 256) :
    matmul dot_S8000x256_S256x256_S8000x256_1_0_0_1_n_n none l w (constant S8000x256 .f32 0x00000000#32) (ix2 r k)
      = ∑ j : Fin 256, l (ix2 r j) * w (ix2 j k) := by
  simp only [matmul]
  rw [Ideal.matmul_constant_zero_apply, ← Equiv.sum_comp (contrEquiv1 dot_S8000x256_S256x256_S8000x256_1_0_0_1_n_n 256 rfl rfl).symm]
  refine Finset.sum_congr rfl fun j _ => ?_
  have hk := contrEquiv1_symm_val dot_S8000x256_S256x256_S8000x256_1_0_0_1_n_n 256 rfl rfl j
  have el : dot_S8000x256_S256x256_S8000x256_1_0_0_1_n_n.lhsIdx (ix2 r k) ((contrEquiv1 dot_S8000x256_S256x256_S8000x256_1_0_0_1_n_n 256 rfl rfl).symm j) = ix2 r j := funext fun a => Fin.ext (by
    match a with
    | ⟨0, _⟩ => exact lhs_dot_0 _ _
    | ⟨1, _⟩ => exact (lhs_dot_1 _ _).trans hk)
  have er : dot_S8000x256_S256x256_S8000x256_1_0_0_1_n_n.rhsIdx (ix2 r k) ((contrEquiv1 dot_S8000x256_S256x256_S8000x256_1_0_0_1_n_n 256 rfl rfl).symm j) = ix2 j k := funext fun a => Fin.ext (by
    match a with
    | ⟨0, _⟩ => exact (rhs_dot_0 _ _).trans hk
    | ⟨1, _⟩ => exact rhs_dot_1 _ _)
  rw [el, er]

/-! ## The lane sum and the column it is laid out in -/

/-- The sum along the lanes of an 8000 × 256 block, at row `r`. -/
theorem lane_sum (v : FVec Ideal S8000x256 .f32) (h : S8000x256.Reduces [1] S8000) (hφ : FKind.Formats .f32)
    (hacc : (0x00000000#32 : BitVec 32) = 0x00000000#32) (r : Fin 8000) :
    multiReduction .add [1] S8000 v 0x00000000#32 h hφ hacc (ix1 r) = ∑ k : Fin 256, v (ix2 r k) := by
  refine (Ideal.multiReduction_add_single v 0x00000000#32 h hφ hacc (ix1 r)).trans ?_
  refine Finset.sum_congr rfl fun k _ => congrArg v ?_
  funext a
  match a with
  | ⟨0, _⟩ => rfl
  | ⟨1, _⟩ => rfl

/-- A length-8000 vector laid out as an 8000 × 1 column reads, at `(r, u)`, the vector at `r`. -/
theorem column_of_vector {α : Type} (x : S8000.Idx → α) (h : S8000.ShapeCasts S8000x1) (r : Fin 8000) (u : Fin 1) :
    shapeCast S8000x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A 1 × 1 array spread over an 8000 × 1 column reads its one entry everywhere. -/
theorem column_of_scalar {α : Type} (x : S1x1.Idx → α) (h : S1x1.Broadcasts S8000x1) (r : Fin 8000) (u : Fin 1) :
    broadcastTo S8000x1 x h (ix2 r u) = x (ix2 (0 : Fin 1) (0 : Fin 1)) := by
  refine broadcastTo_apply x h (ix2 r u) (ix2 (0 : Fin 1) (0 : Fin 1)) fun ax => ?_
  match ax with
  | ⟨0, _⟩ => rfl
  | ⟨1, _⟩ => rfl

/-! ## The body's result at a row -/

/-- The value the body stores at `(r, u)` of its output block, from the blocks it loaded: the logistic of the
    clipped affine forms' weighted sum. The casts between equal shapes are identities; the matrix product, the two
    row broadcasts, the lane sum and the column layout are read by the lemmas above, in the body's order. -/
theorem pay_row (x0 : FVec Ideal S8000x256 .bf16) (x1 : FVec Ideal S256x256 .bf16) (x2 x3 : FVec Ideal S1x256 .f32)
    (x4 : FVec Ideal S1x1 .f32) (r : Fin 8000) (u : Fin 1) :
    k0_pay1 (F := Ideal) x0 x1 x2 x3 x4 (ix2 r u)
      = Ideal.logistic ((∑ k : Fin 256, max ((∑ j : Fin 256, x0 (ix2 r j) * x1 (ix2 j k)) + x2 (ix2 (0 : Fin 1) k))
            (Ideal.ofBits .f32 0x00000000#32) * x3 (ix2 (0 : Fin 1) k)) + x4 (ix2 (0 : Fin 1) (0 : Fin 1))) := by
  unfold k0_pay1
  dsimp only
  simp only [shapeCast_self]
  refine congrArg Ideal.logistic ?_
  show shapeCast S8000x1 _ _ (ix2 r u) + broadcastTo S8000x1 _ _ (ix2 r u) = _
  rw [column_of_vector, column_of_scalar, lane_sum]
  refine congrArg (· + _) (Finset.sum_congr rfl fun k _ => ?_)
  show max (matmul dot_S8000x256_S256x256_S8000x256_1_0_0_1_n_n none x0 x1 (constant S8000x256 .f32 0x00000000#32) (ix2 r k) + broadcastTo S8000x256 x2 _ (ix2 r k)) (Ideal.ofBits .f32 0x00000000#32) * broadcastTo S8000x256 x3 _ (ix2 r k) = _
  rw [matmul_entry, broadcastTo_1b_ab_apply, broadcastTo_1b_ab_apply]

/-- The same at any index of the output block: only the row coordinate matters. -/
theorem pay_apply (x0 : FVec Ideal S8000x256 .bf16) (x1 : FVec Ideal S256x256 .bf16) (x2 x3 : FVec Ideal S1x256 .f32)
    (x4 : FVec Ideal S1x1 .f32) (y : S8000x1.Idx) :
    k0_pay1 (F := Ideal) x0 x1 x2 x3 x4 y
      = Ideal.logistic ((∑ k : Fin 256, max ((∑ j : Fin 256, x0 (ix2 (y 0) j) * x1 (ix2 j k)) + x2 (ix2 (0 : Fin 1) k))
            (Ideal.ofBits .f32 0x00000000#32) * x3 (ix2 (0 : Fin 1) k)) + x4 (ix2 (0 : Fin 1) (0 : Fin 1))) := by
  obtain ⟨r, u, rfl⟩ : ∃ (r : Fin 8000) (u : Fin 1), y = ix2 r u := ⟨y 0, y 1, eq_ix2 y⟩
  exact pay_row x0 x1 x2 x3 x4 r u

end Cert.KernelIdeal.Body

end
-- ==== Proof.Entry.lean ====
/-
  What the grid finds in its operand arrays.

  Before the grid runs, the program gathers the two endpoint rows of every edge from the node table, multiplies
  them entry by entry (the edge features), and lays the weights out for the body: the first-layer weights as they
  are, the first-layer bias as a row, the second-layer weights (a 256 × 1 column) as a row, the output bias as a
  1 × 1 array. The two changes of float format are the identity on extended reals.

  The feature array is kept as ONE named term (`feat`): the reference builds the same term, and nothing below
  ever looks inside the gather.
-/
import proofs.«418109_j88364657148159_3_alg».proof.Proof.Gen.KernelIdeal.Value
import Idealize.ShloMosaic.Lib.StableHlo.Run
import Idealize.ShloMosaic.Lib.Tactic
import Idealize.ShloMosaic.Lib.ValueIdx

noncomputable section

namespace Cert.KernelIdeal.Entry

open Cert.KernelIdeal Cert.KernelIdeal.Gen Idealize.ShloMosaic Idealize.ShloMosaic.TcCoe Idealize.SL.Sem

variable (m : (ℓ : Loc nD τ sig) → Buf (Elt Ideal) ℓ)

/-- The row of the node table an edge endpoint names: a negative index counts from the end of the table. -/
def rowIndex (s : IVec S1000000 32) : IVec S1000000x1 32 :=
  broadcastInDim S1000000x1 ![0] bcast_S1000000_S1000000x1_0
    (select (cmpi .slt s (broadcastInDim S1000000 ![] bcast_S_S1000000 (constantI S_ 32 0#32)))
      (addi s (broadcastInDim S1000000 ![] bcast_S_S1000000 (constantI S_ 32 100000#32))) s)

/-- The edge features: the source row times the destination row, entry by entry. -/
def feat (z : FVec Ideal S100000x256 .f32) (s d : IVec S1000000 32) : FVec Ideal S1000000x256 .f32 :=
  mulf (Host.gather gather_S100000x256_S1000000x1_S1000000x256_1_0_n_n_0_1_1256 z (rowIndex s))
       (Host.gather gather_S100000x256_S1000000x1_S1000000x256_1_0_n_n_0_1_1256 z (rowIndex d))

set_option maxHeartbeats 1000000 in
/-- The grid's first operand is the edge features, in the narrower float format. -/
theorem V_feat (c : Dev nD) : (V m c main_v15 : FVec Ideal S1000000x256 .bf16)
    = (truncf .bf16 (feat (m ((c : Thread nD τ).loc main_arg0)) (m ((c : Thread nD τ).loc main_arg1)) (m ((c : Thread nD τ).loc main_arg2))) bitsLt_bf16_f32 : FVec Ideal S1000000x256 .bf16) := by
  dsimp only [Gen.V, Gen.hostOps0]
  after_results
  unfold feat rowIndex
  rfl

/-- Its second operand is the first-layer weights, in the narrower float format. -/
theorem V_w1 (c : Dev nD) : (V m c main_v16 : FVec Ideal S256x256 .bf16)
    = (truncf .bf16 (m ((c : Thread nD τ).loc main_arg3) : FVec Ideal S256x256 .f32) bitsLt_bf16_f32 : FVec Ideal S256x256 .bf16) := by
  dsimp only [Gen.V, Gen.hostOps0]; after_results <;> rfl

/-- The first-layer bias as a row. -/
theorem V_b1 (c : Dev nD) : (V m c main_v17 : FVec Ideal S1x256 .f32)
    = (shapeCast S1x256 (m ((c : Thread nD τ).loc main_arg4) : FVec Ideal S256 .f32) shapeCasts_S256_S1x256 : FVec Ideal S1x256 .f32) := by
  dsimp only [Gen.V, Gen.hostOps0]; after_results <;> rfl

/-- The second-layer weights as a row. -/
theorem V_w2 (c : Dev nD) : (V m c main_v18 : FVec Ideal S1x256 .f32)
    = (shapeCast S1x256 (m ((c : Thread nD τ).loc main_arg5) : FVec Ideal S256x1 .f32) shapeCasts_S256x1_S1x256 : FVec Ideal S1x256 .f32) := by
  dsimp only [Gen.V, Gen.hostOps0]; after_results <;> rfl

/-- The output bias as a 1 × 1 array. -/
theorem V_b2 (c : Dev nD) : (V m c main_v19 : FVec Ideal S1x1 .f32)
    = (shapeCast S1x1 (m ((c : Thread nD τ).loc main_arg6) : FVec Ideal S1 .f32) shapeCasts_S1_S1x1 : FVec Ideal S1x1 .f32) := by
  dsimp only [Gen.V, Gen.hostOps0]; after_results <;> rfl

end Cert.KernelIdeal.Entry

end
-- ==== Proof.Score.lean ====
/-
  The function both programs compute, over the extended reals.

  For an edge `e` with feature row `X e ·` (the product of its two endpoint embeddings), a two-layer perceptron
  with one output unit and a logistic link:

    hidden e k = max (∑ j, X e j · W1 j k + b1 k) 0
    score  e   = logistic (∑ k, hidden e k · W2 k 0 + b2 0)

  Nothing here depends on a program: the arrays are plain functions on literal index types.
-/
import Idealize.ShloMosaic.PureOps.Ideal
import Idealize.ShloMosaic.Lib.ValueIdx

noncomputable section

namespace Cert.EdgeScore

open Idealize.ShloMosaic Idealize.ShloMosaic.ValueIdx

/-- The hidden unit `k` of edge `e`: the affine form of the edge's feature row, clipped below at the
    float zero (kept as its bit pattern: both programs spell the same word). -/
def hidden (X : (⟨2, ![1000000, 256]⟩ : Shape).Idx → EReal) (W1 : (⟨2, ![256, 256]⟩ : Shape).Idx → EReal)
    (b1 : (⟨1, ![256]⟩ : Shape).Idx → EReal) (e : Fin 1000000) (k : Fin 256) : EReal :=
  max ((∑ j : Fin 256, X (ix2 e j) * W1 (ix2 j k)) + b1 (ix1 k)) (Ideal.ofBits .f32 0x00000000#32)

/-- The score of every edge, as a column: the logistic of the hidden layer's weighted sum plus the bias. -/
def score (X : (⟨2, ![1000000, 256]⟩ : Shape).Idx → EReal) (W1 : (⟨2, ![256, 256]⟩ : Shape).Idx → EReal)
    (b1 : (⟨1, ![256]⟩ : Shape).Idx → EReal) (W2 : (⟨2, ![256, 1]⟩ : Shape).Idx → EReal)
    (b2 : (⟨1, ![1]⟩ : Shape).Idx → EReal) : (⟨2, ![1000000, 1]⟩ : Shape).Idx → EReal :=
  fun i => Ideal.logistic ((∑ k : Fin 256, hidden X W1 b1 (i 0) k * W2 (ix2 k (0 : Fin 1))) + b2 (ix1 (0 : Fin 1)))

end Cert.EdgeScore

end
-- ==== Proof.Whole.lean ====
/-
  From blocks to the whole score column.

  The grid has 125 steps; step `t` reads rows 8000 t … 8000 t + 7999 of the edge features and the whole of the
  four weight arrays, and writes rows 8000 t … 8000 t + 7999 of the output column. So what step `t` writes back is
  block `t` of ONE function of the operand arrays (`gridScore`), the 125 blocks cover the column (row `e` lies
  in block `e / 8000`), and the output array ends holding that function. Reading the operand arrays back to the
  program's arguments turns it into the score function of the edge features and the weights.
-/
import proofs.«418109_j88364657148159_3_alg».proof.Proof.Gen.KernelIdeal.Value
import proofs.«418109_j88364657148159_3_alg».proof.Proof.Body
import proofs.«418109_j88364657148159_3_alg».proof.Proof.Entry
import proofs.«418109_j88364657148159_3_alg».proof.Proof.Score
import Idealize.ShloMosaic.Lib.ValueLayout
import Idealize.ShloMosaic.Lib.Pipeline.Value
import Idealize.ShloMosaic.Lib.ValueIdx
noncomputable section
namespace Cert.KernelIdeal.Whole
open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The score column from the operand arrays as the grid finds them. -/
def gridScore (X : FVec Ideal S1000000x256 .bf16) (w1 : FVec Ideal S256x256 .bf16) (b1 w2 : FVec Ideal S1x256 .f32)
    (b2 : FVec Ideal S1x1 .f32) : FVec Ideal S1000000x1 .f32 := fun i =>
  Ideal.logistic ((∑ k : Fin 256, max ((∑ j : Fin 256, X (ix2 (i 0) j) * w1 (ix2 j k)) + b1 (ix2 (0 : Fin 1) k))
      (Ideal.ofBits .f32 0x00000000#32) * w2 (ix2 (0 : Fin 1) k)) + b2 (ix2 (0 : Fin 1) (0 : Fin 1)))

/-- The index maps, decided over the 125 steps: the features and the output move one block per step along
    the rows; the weights stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the feature block at step `t` is row `8000 t + r` of the feature array. -/
theorem featBlock_apply (c : Dev nD) (t : Fin cfg0.N) (x : S8000x256.Idx) (k : S1000000x256.Idx)
    (hk0 : (k 0).val = t.val * 8000 + (x 0).val) (hk1 : (k 1).val = (x 1).val) :
    (iblk m c 0 t : FVec Ideal S8000x256 .bf16) x = (V m c main_v15 : FVec Ideal S1000000x256 .bf16) k := by
  obtain ⟨e0, e1, -⟩ := idx_facts t
  unfold iblk
  rw [View.read_apply]
  show V m c main_v15 _ = V m c main_v15 _
  congr 1
  funext a
  apply Fin.ext
  match a with
  | ⟨0, _⟩ => show win0_0.index t (0 : Fin 2) * 8000 + 1 * (x 0).val = (k 0).val; rw [e0, hk0]; omega
  | ⟨1, _⟩ => show win0_0.index t (1 : Fin 2) * 256 + 1 * (x 1).val = (k 1).val; rw [e1, hk1]; omega

/-- The weights' block is the whole weight array at every step. -/
theorem w1Block (c : Dev nD) (t : Fin cfg0.N) :
    (iblk m c 1 t : FVec Ideal S256x256 .bf16) = (V m c main_v16 : FVec Ideal S256x256 .bf16) := by
  obtain ⟨-, -, e0, e1, -⟩ := idx_facts t
  funext x
  unfold iblk
  rw [View.read_apply]
  show V m c main_v16 _ = V m c main_v16 _
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

theorem b1Block (c : Dev nD) (t : Fin cfg0.N) :
    (iblk m c 2 t : FVec Ideal S1x256 .f32) = (V m c main_v17 : FVec Ideal S1x256 .f32) := by
  obtain ⟨-, -, -, -, e0, e1, -⟩ := idx_facts t
  funext x
  unfold iblk
  rw [View.read_apply]
  show V m c main_v17 _ = V m c main_v17 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

theorem w2Block (c : Dev nD) (t : Fin cfg0.N) :
    (iblk m c 3 t : FVec Ideal S1x256 .f32) = (V m c main_v18 : FVec Ideal S1x256 .f32) := by
  obtain ⟨-, -, -, -, -, -, e0, e1, -⟩ := idx_facts t
  funext x
  unfold iblk
  rw [View.read_apply]
  show V m c main_v18 _ = V m c main_v18 _
  congr 1
  funext a
  apply Fin.ext
  match a with
  | ⟨0, _⟩ => show win0_3.index t (0 : Fin 2) * 1 + 1 * (x 0).val = (x 0).val; rw [e0]; omega
  | ⟨1, _⟩ => show win0_3.index t (1 : Fin 2) * 256 + 1 * (x 1).val = (x 1).val; rw [e1]; omega

theorem b2Block (c : Dev nD) (t : Fin cfg0.N) :
    (iblk m c 4 t : FVec Ideal S1x1 .f32) = (V m c main_v19 : FVec Ideal S1x1 .f32) := by
  obtain ⟨-, -, -, -, -, -, -, -, e0, e1, -⟩ := idx_facts t
  funext x
  unfold iblk
  rw [View.read_apply]
  show V m c main_v19 _ = V m c main_v19 _
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 1 + 1 * (x 1).val = (x 1).val; rw [e1]; omega

/-- What step `t` writes back is block `t` of the score column. -/
theorem flushed_eq (c : Dev nD) (t : Fin cfg0.N) :
    (dats m 0 c).flushed 5 t = ((cfg0.win 5).blk t).view.read (Elt Ideal)
      (gridScore (V m c main_v15) (V m c main_v16) (V m c main_v17) (V m c main_v18) (V m c main_v19)) := by
  rw [Value.flushed5]
  unfold out0_5
  rw [View.canon_unit_zero hz]
  simp only [View.ld_unit_zero (S := S8000x256) hz, View.ld_unit_zero (S := S256x256) hz,
    View.ld_unit_zero (S := S1x256) hz, View.ld_unit_zero (S := S1x1) hz]
  obtain ⟨-, -, -, -, -, -, -, -, -, -, e0, e1⟩ := idx_facts t
  funext y
  show k0_pay1 (F := Ideal) (iblk m c 0 t) (iblk m c 1 t) (iblk m c 2 t) (iblk m c 3 t) (iblk m c 4 t) y
    = gridScore (V m c main_v15) (V m c main_v16) (V m c main_v17) (V m c main_v18) (V m c main_v19) (((cfg0.win 5).blk t).view.emb y)
  refine (Body.pay_apply (iblk m c 0 t) (iblk m c 1 t) (iblk m c 2 t) (iblk m c 3 t) (iblk m c 4 t) y).trans ?_
  rw [w1Block, b1Block, w2Block, b2Block]
  unfold gridScore
  refine congrArg Ideal.logistic (congrArg (· + _) (Finset.sum_congr rfl fun k _ => ?_))
  refine congrArg (fun s => max (s + _) _ * _) (Finset.sum_congr rfl fun j _ => ?_)
  refine congrArg (· * _) (featBlock_apply m c t _ _ ?_ rfl)
  show win0_5.index t (0 : Fin 2) * 8000 + 1 * (y 0).val = t.val * 8000 + (y 0).val
  rw [e0]; omega

/-- An index of the score column lies in step `t`'s block iff each coordinate lies in the block's range. -/
theorem mem_blk (t : Fin cfg0.N) (i : S1000000x1.Idx) :
    i ∈ ((cfg0.win 5).blk t).view.set ↔ ∀ a : Fin 2, win0_5.index t a * S8000x1.size a ≤ (i a).val ∧ (i a).val < win0_5.index t a * S8000x1.size a + S8000x1.size a := by
  show i ∈ ((View.whole main_v20).slice (win0_5.rect t)).set ↔ _
  rw [View.set_slice_whole, Rect.mem_set_unit]
  exact Iff.rfl

/-- Every edge's row lies in the block of step `row / 8000`. -/
theorem cover (i : S1000000x1.Idx) :
    ∃ t : Fin cfg0.N, (cfg0.win 5).flush t = true ∧ i ∈ ((cfg0.win 5).blk t).view.set := by
  have hN : cfg0.N = 125 := N_0
  have hi0 : (i 0).val < 1000000 := (i 0).isLt
  have hi1 : (i 1).val < 1 := (i 1).isLt
  obtain ⟨t, ht⟩ : ∃ t : Fin cfg0.N, t.val = (i 0).val / 8000 := ⟨⟨(i 0).val / 8000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 8000 ≤ (i 0).val ∧ (i 0).val < win0_5.index t (0 : Fin 2) * 8000 + 8000; rw [e0, ht]; omega
  | ⟨1, _⟩ => show win0_5.index t (1 : Fin 2) * 1 ≤ (i 1).val ∧ (i 1).val < win0_5.index t (1 : Fin 2) * 1 + 1; rw [e1]; omega

/-- After the grid the output array is the score column of the operand arrays. -/
theorem final (c : Dev nD) : (dats m 0 c).arrAt 5 cfg0.N
    = gridScore (V m c main_v15) (V m c main_v16) (V m c main_v17) (V m c main_v18) (V m c main_v19) :=
  (dats m 0 c).arrAt_eq_of_cover 5 _ (fun t _ => flushed_eq m c t) cover

/-! ## Back to the program's arguments -/

/-- A 256 × 1 column laid out as a 1 × 256 row reads, at `(0, k)`, the column at `(k, 0)`. -/
theorem row_of_column {α : Type} (w : S256x1.Idx → α) (h : S256x1.ShapeCasts S1x256) (k : Fin 256) :
    shapeCast S1x256 w h (ix2 (0 : Fin 1) k) = w (ix2 k (0 : Fin 1)) :=
  shapeCast_apply w h _ _ (by
    rw [Shape.rowMajor_val_two, Shape.rowMajor_val_two]
    show k.val * 1 + 0 = 0 * 256 + k.val
    omega)

/-- The score column of the operand arrays is the score function of the edge features and the weights as
    launched: the format changes are the identity, the bias and the second-layer weights are read through
    their row layouts. -/
theorem gridScore_operands (c : Dev nD) :
    gridScore (V m c main_v15) (V m c main_v16) (V m c main_v17) (V m c main_v18) (V m c main_v19)
      = Cert.EdgeScore.score (Entry.feat (m ((c : Thread nD τ).loc main_arg0)) (m ((c : Thread nD τ).loc main_arg1)) (m ((c : Thread nD τ).loc main_arg2)))
          (m ((c : Thread nD τ).loc main_arg3)) (m ((c : Thread nD τ).loc main_arg4)) (m ((c : Thread nD τ).loc main_arg5)) (m ((c : Thread nD τ).loc main_arg6)) := by
  rw [Entry.V_feat, Entry.V_w1, Entry.V_b1, Entry.V_w2, Entry.V_b2]
  funext i
  unfold gridScore Cert.EdgeScore.score Cert.EdgeScore.hidden
  simp only [shapeCast_a_1a_apply, row_of_column, truncf_apply]

/-- The run, read: the output array at the score function of the arguments, the arguments unchanged. -/
theorem run : θ_run defs (onTc (τ := τ) (main (F := Ideal))) ⟨m, fun _ => 0, ρ⟩ fun r => ∀ c : Dev nD,
      r.2.mem ((c : Thread nD τ).loc main_v20)
        = Cert.EdgeScore.score (Entry.feat (m ((c : Thread nD τ).loc main_arg0)) (m ((c : Thread nD τ).loc main_arg1)) (m ((c : Thread nD τ).loc main_arg2)))
            (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (gridScore_operands m c)), (h c).2⟩)
    (Value.run_blocks m ρ)

end Cert.KernelIdeal.Whole
end
-- ==== Proof.RefScore.lean ====
/-
  The reference, read at an index, is the score function.

  The reference gathers and multiplies the endpoint rows (its edge features, kept here as the opaque stage it
  writes them in), applies the first layer as a matrix product plus the bias broadcast over the edges, clips at
  zero, applies the second layer as a matrix product with the 256 × 1 weight column plus the bias, and spells the
  logistic function as 1 / (1 + exp (−x)). On extended reals that quotient IS the logistic function, and the float
  pattern of one is the number one; everything else is the score function's own expression once the generated
  index maps are identified with the literal coordinates.
-/
import proofs.«418109_j88364657148159_3_alg».proof.Proof.Gen.ReferenceIdeal.Read
import proofs.«418109_j88364657148159_3_alg».proof.Proof.Score
import Idealize.ShloMosaic.Lib.IdealHost
noncomputable section
namespace Cert.ReferenceIdeal.RefScore
open Cert.ReferenceIdeal Cert.ReferenceIdeal.Gen Cert.ReferenceIdeal.Read Idealize.ShloMosaic Idealize.ShloMosaic.ValueIdx

/-! ## The generated index maps, at literal coordinates -/

theorem lidx20 (e : Fin 1000000) (u : Fin 1) (k : Fin 256) : lidx_main_v20 (ix2 e u) k = ix2 e k :=
  funext fun a => Fin.ext (by match a with | ⟨0, _⟩ => rfl | ⟨1, _⟩ => rfl)
theorem ridx20 (e : Fin 1000000) (u : Fin 1) (k : Fin 256) : ridx_main_v20 (ix2 e u) k = ix2 k (0 : Fin 1) :=
  funext fun a => Fin.ext (by
    match a with
    | ⟨0, _⟩ => rfl
    | ⟨1, _⟩ => show u.val = 0; omega)
theorem lidx15 (e : Fin 1000000) (k j : Fin 256) : lidx_main_v15 (ix2 e k) j = ix2 e j :=
  funext fun a => Fin.ext (by match a with | ⟨0, _⟩ => rfl | ⟨1, _⟩ => rfl)
theorem ridx15 (e : Fin 1000000) (k j : Fin 256) : ridx_main_v15 (ix2 e k) j = ix2 j k :=
  funext fun a => Fin.ext (by match a with | ⟨0, _⟩ => rfl | ⟨1, _⟩ => rfl)
theorem idx1617 (e : Fin 1000000) (k : Fin 256) : idx_main_v16 (idx_main_v17 (ix2 e k)) = ix1 k :=
  funext fun a => Fin.ext (by match a with | ⟨0, _⟩ => rfl)
theorem idx2122 (i : S1000000x1.Idx) : idx_main_v21 (idx_main_v22 i) = ix1 (0 : Fin 1) :=
  funext fun a => Fin.ext (by match a with | ⟨0, _⟩ => rfl)

/-! ## The two layers -/

/-- The clipped first layer at edge `e`, unit `k`: the reference's stage is the score function's hidden unit. -/
theorem hidden_eq (x0 : FVec Ideal S100000x256 .f32) (x1 x2 : IVec S1000000 32) (x3 : FVec Ideal S256x256 .f32) (x4 : FVec Ideal S256 .f32)
    (e : Fin 1000000) (k : Fin 256) :
    val_main_v19 (F := Ideal) x0 x1 x2 x3 x4 (ix2 e k) = Cert.EdgeScore.hidden (val_main_v14 (F := Ideal) x0 x1 x2) x3 x4 e k := by
  rw [val_main_v19_apply, val_main_v18_apply, val_main_v15_apply, val_main_v17_apply, val_main_v16_apply,
    val_main_call0_v0_apply, val_main_call0_cst_apply, idx1617]
  simp only [lidx15, ridx15]
  rfl

/-- The reference's result stage is the score column of its edge features and the weights. -/
theorem ref_eq (x0 : FVec Ideal S100000x256 .f32) (x1 x2 : IVec S1000000 32) (x3 : FVec Ideal S256x256 .f32) (x4 : FVec Ideal S256 .f32)
    (x5 : FVec Ideal S256x1 .f32) (x6 : FVec Ideal S1 .f32) :
    val_main_v29 (F := Ideal) x0 x1 x2 x3 x4 x5 x6 = Cert.EdgeScore.score (val_main_v14 (F := Ideal) x0 x1 x2) x3 x4 x5 x6 := by
  funext i
  obtain ⟨e, u, rfl⟩ : ∃ (e : Fin 1000000) (u : Fin 1), i = ix2 e u := ⟨i 0, i 1, eq_ix2 i⟩
  rw [val_main_v29_apply, val_main_v28_apply, val_main_cst_3_apply, val_main_v27_apply, val_main_v26_apply, val_main_cst_apply,
    val_main_v25_apply, val_main_v24_apply, val_main_v23_apply, val_main_v22_apply, val_main_v21_apply, val_main_v20_apply, idx2122]
  simp only [lidx20, ridx20, hidden_eq, Ideal.ofBits_def, Ideal.ofBits_one_f32]
  rfl

end Cert.ReferenceIdeal.RefScore
end
-- ==== Proof.lean ====
/-
  Edge scores of a two-layer perceptron: the tiled kernel against the plain reference, over the extended reals.

  For every edge both programs compute  logistic (∑ k, max (∑ j, X e j · W1 j k + b1 k) 0 · W2 k 0 + b2 0),
  where X e · is the entry-by-entry product of the edge's two endpoint rows of the node table.

  * Both build X by the same host operations (`feat_eq`: the two terms are one term).
  * The kernel tiles the edges into 125 blocks of 8000 rows; per block it takes the matrix product with W1 into a
    zero accumulator, adds the bias row, clips at zero, multiplies by W2 laid out as a row, sums along the lanes,
    adds the output bias and applies the logistic function (Body.lean); the blocks cover the output column
    (Whole.lean), whose operands are the arguments re-laid (Entry.lean).
  * The reference takes two matrix products and spells the logistic function as 1 / (1 + exp (−x)), which on extended
    reals is the same function (RefScore.lean).
  No algebraic law beyond reading each operation at an index is needed: both sides sum the same products over the
  same index sets, factor by factor in the same order, so the finiteness of the inputs is never used. The idealization rewrote nothing, so `preserves` is trivial; the
  kernel's frames are the generated ones, the reference's frame is its generated run with the result dropped.
-/
import proofs.«418109_j88364657148159_3_alg».proof.Defs
import proofs.«418109_j88364657148159_3_alg».proof.Proof.Gen.Kernel
import proofs.«418109_j88364657148159_3_alg».proof.Proof.Gen.Kernel.Skeleton
import proofs.«418109_j88364657148159_3_alg».proof.Proof.Gen.Kernel.Launch
import proofs.«418109_j88364657148159_3_alg».proof.Proof.Gen.Kernel.Points
import proofs.«418109_j88364657148159_3_alg».proof.Proof.Gen.Kernel.Frame
import proofs.«418109_j88364657148159_3_alg».proof.Proof.Gen.KernelIdeal
import proofs.«418109_j88364657148159_3_alg».proof.Proof.Gen.KernelIdeal.Skeleton
import proofs.«418109_j88364657148159_3_alg».proof.Proof.Gen.KernelIdeal.Launch
import proofs.«418109_j88364657148159_3_alg».proof.Proof.Gen.KernelIdeal.Points
import proofs.«418109_j88364657148159_3_alg».proof.Proof.Gen.KernelIdeal.Frame
import proofs.«418109_j88364657148159_3_alg».proof.Proof.Gen.ReferenceIdeal
import proofs.«418109_j88364657148159_3_alg».proof.Proof.Gen.Pre_finite_inputs
import proofs.«418109_j88364657148159_3_alg».proof.Proof.Gen.KernelIdeal.Value
import proofs.«418109_j88364657148159_3_alg».proof.Proof.Gen.ReferenceIdeal.Run
import proofs.«418109_j88364657148159_3_alg».proof.Proof.Gen.ReferenceIdeal.Read
import proofs.«418109_j88364657148159_3_alg».proof.Proof.Whole
import proofs.«418109_j88364657148159_3_alg».proof.Proof.RefScore
import Idealize.ShloMosaic.Adequacy
import Idealize.ShloMosaic.Init

noncomputable section

namespace Cert.Proof

open Idealize.ShloMosaic Idealize.SL.Sem

/-- The reference's edge-feature stage is the kernel's edge-feature term: the same gathers of the same rows
    (a negative endpoint index counted from the end of the table), multiplied entry by entry. -/
theorem feat_eq (z : FVec Ideal Cert.KernelIdeal.S100000x256 .f32) (s d : IVec Cert.KernelIdeal.S1000000 32) :
    Cert.ReferenceIdeal.Read.val_main_v14 (F := Ideal) z s d = Cert.KernelIdeal.Entry.feat z s d := by
  unfold Cert.ReferenceIdeal.Read.val_main_v14 Cert.ReferenceIdeal.Read.val_main_v6 Cert.ReferenceIdeal.Read.val_main_v13
    Cert.ReferenceIdeal.Read.val_main_v5 Cert.ReferenceIdeal.Read.val_main_v12 Cert.ReferenceIdeal.Read.val_main_v4
    Cert.ReferenceIdeal.Read.val_main_v11 Cert.ReferenceIdeal.Read.val_main_v1 Cert.ReferenceIdeal.Read.val_main_v8
    Cert.ReferenceIdeal.Read.val_main_v3 Cert.ReferenceIdeal.Read.val_main_v10 Cert.ReferenceIdeal.Read.val_main_v0
    Cert.ReferenceIdeal.Read.val_main_v7 Cert.ReferenceIdeal.Read.val_main_v2 Cert.ReferenceIdeal.Read.val_main_v9
    Cert.ReferenceIdeal.Read.val_main_c Cert.ReferenceIdeal.Read.val_main_c_0 Cert.ReferenceIdeal.Read.val_main_c_1
    Cert.ReferenceIdeal.Read.val_main_c_2 Cert.KernelIdeal.Entry.feat Cert.KernelIdeal.Entry.rowIndex
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the score column of the arguments: the kernel by its blocks (Whole.lean), the
    reference by its stages read at an index (RefScore.lean), from arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefScore.ref_eq, feat_eq,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
